-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S16384x4096 : Shape := ⟨2, ![16384, 4096]⟩
abbrev S512 : Shape := ⟨1, ![512]⟩
abbrev S512x1 : Shape := ⟨2, ![512, 1]⟩
abbrev S128 : Shape := ⟨1, ![128]⟩
abbrev S1x128 : Shape := ⟨2, ![1, 128]⟩
abbrev S_ : Shape := ⟨0, ![]⟩
abbrev S512x128 : Shape := ⟨2, ![512, 128]⟩
abbrev S16384x1024 : Shape := ⟨2, ![16384, 1024]⟩
abbrev S2048x512 : Shape := ⟨2, ![2048, 512]⟩
abbrev S2048x128 : Shape := ⟨2, ![2048, 128]⟩
abbrev S4x4096x1024 : Shape := ⟨3, ![4, 4096, 1024]⟩

abbrev nBuf : Space → Nat
  | .hbm => 15
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S16384x4096, .f32⟩
  | .hbm, ⟨2, _⟩ => ⟨S512, .i32⟩
  | .hbm, ⟨3, _⟩ => ⟨S512x1, .i32⟩
  | .hbm, ⟨4, _⟩ => ⟨S128, .i32⟩
  | .hbm, ⟨5, _⟩ => ⟨S1x128, .i32⟩
  | .hbm, ⟨6, _⟩ => ⟨S_, .i32⟩
  | .hbm, ⟨7, _⟩ => ⟨S1x128, .i32⟩
  | .hbm, ⟨8, _⟩ => ⟨S1x128, .i32⟩
  | .hbm, ⟨9, _⟩ => ⟨S512x128, .i32⟩
  | .hbm, ⟨10, _⟩ => ⟨S512x128, .i32⟩
  | .hbm, ⟨11, _⟩ => ⟨S512x128, .i1⟩
  | .hbm, ⟨12, _⟩ => ⟨S512x128, .f32⟩
  | .hbm, ⟨13, _⟩ => ⟨S16384x1024, .f32⟩
  | .hbm, ⟨14, _⟩ => ⟨S4x4096x1024, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S2048x128, .f32⟩
  | .local _ .vmem, ⟨4, _⟩ => ⟨S2048x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x4096x4096_S16384x4096 : S4x4096x4096.ShapeCasts S16384x4096
  bcast_S512_S512x1_0 : S512.BroadcastsInDim S512x1 (![0] : Fin 1 → Fin S512x1.rank)
  bcast_S128_S1x128_1 : S128.BroadcastsInDim S1x128 (![1] : Fin 1 → Fin S1x128.rank)
  bcast_S_S1x128 : S_.BroadcastsInDim S1x128 (![] : Fin 0 → Fin S1x128.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S16384x1024_S4x4096x1024 : S16384x1024.ShapeCasts S4x4096x1024
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .f32 = 32 ∨ (Rect.block (s := S16384x4096) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x1024.size a
  hwx0_2 : ∀ i : grid0.Coords, EltTy.bits .f32 = 32 ∨ (Rect.block (s := S16384x1024) S2048x128.size (cc0_transform_2 i) (hinb0_2 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S4x4096x1024 : Shape := ⟨3, ![4, 4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1, .i32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S1x1, .i32⟩
  | .hbm, ⟨15, _⟩ => ⟨S1024x1, .i32⟩
  | .hbm, ⟨16, _⟩ => ⟨S1024x1, .i1⟩
  | .hbm, ⟨17, _⟩ => ⟨S1024x1, .i1⟩
  | .hbm, ⟨18, _⟩ => ⟨S_, .i1⟩
  | .hbm, ⟨19, _⟩ => ⟨S1024, .i1⟩
  | .hbm, ⟨20, _⟩ => ⟨S4x4096x1024, .f32⟩
  | .hbm, ⟨21, _⟩ => ⟨S4x4096x1024, .i1⟩
  | .hbm, ⟨22, _⟩ => ⟨S_, .f32⟩
  | .hbm, ⟨23, _⟩ => ⟨S4x4096x1024, .f32⟩
  | .hbm, ⟨24, _⟩ => ⟨S4x4096x1024, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S4x4096x1024_2 : S1024.BroadcastsInDim S4x4096x1024 (![2] : Fin 1 → Fin S4x4096x1024.rank)
  bcast_S_S4x4096x1024 : S_.BroadcastsInDim S4x4096x1024 (![] : Fin 0 → Fin S4x4096x1024.rank)
  gather_S4x4096x4096_S1024x1_S4x4096x1024_01_2_n_n_2_1_440961_wf : GatherDims.WF S4x4096x4096 S1024x1 S4x4096x1024 [0, 1] [2] [] [2] [] 1 ![4, 4096, 1]

variable [Facts₀]

def gather_S4x4096x4096_S1024x1_S4x4096x1024_01_2_n_n_2_1_440961 : GatherDims S4x4096x4096 S1024x1 S4x4096x1024 where
  offsetDims := [0, 1]
  collapsedSliceDims := [2]
  operandBatchingDims := []
  startIndicesBatchingDims := []
  startIndexMap := [2]
  indexVectorDim := 1
  sliceSizes := ![4, 4096, 1]
  wf := gather_S4x4096x4096_S1024x1_S4x4096x1024_01_2_n_n_2_1_440961_wf

class Facts : Prop extends Facts₀ where

variable [Facts]
-- ==== Proof.BlockProduct.lean ====
/-
  One block of the kernel's output as sums. The body multiplies a [2048, 512] block `x0` by a [512, 128] block `x1`
  into a zero accumulator; over the extended reals entry `(r, l)` of the product is the plain sum over the 512
  contracted positions `k` of `x0[r, k] · x1[k, l]`: the accumulator's `0` drops, the casts to the same shape are
  the identity, and the one contracted axis is re-indexed by its coordinate. The operands' indices at output index
  `j` and contraction position `k`, axis by axis: the left reads row `j 0` and column `k`, the right row `k` and
  column `j 1`.
-/
import proofs.«136969_g15977278341198_cont_week2b_1507_4_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- One axis is contracted, -/
theorem contr_rank : dot_S2048x512_S512x128_S2048x128_1_0_0_1_n_n.contr.rank = 1 := rfl
/-- of extent 512. -/
theorem contr_size : dot_S2048x512_S512x128_S2048x128_1_0_0_1_n_n.contr.size ⟨0, by rw [contr_rank]; exact Nat.one_pos⟩ = 512 := rfl

/-- The left operand's row is the output's row; -/
theorem lhs_axis0 (j : S2048x128.Idx) (k : dot_S2048x512_S512x128_S2048x128_1_0_0_1_n_n.contr.Idx) :
    (dot_S2048x512_S512x128_S2048x128_1_0_0_1_n_n.lhsIdx j k 0).val = (j 0).val := rfl
/-- its column the contraction position. -/
theorem lhs_axis1 (j : S2048x128.Idx) (k : dot_S2048x512_S512x128_S2048x128_1_0_0_1_n_n.contr.Idx) :
    (dot_S2048x512_S512x128_S2048x128_1_0_0_1_n_n.lhsIdx j k 1).val = (k ⟨0, by rw [contr_rank]; exact Nat.one_pos⟩).val :=
  DotDims.lhsIdx_val_of_single dot_S2048x512_S512x128_S2048x128_1_0_0_1_n_n rfl j k
/-- The right operand's row is the contraction position; -/
theorem rhs_axis0 (j : S2048x128.Idx) (k : dot_S2048x512_S512x128_S2048x128_1_0_0_1_n_n.contr.Idx) :
    (dot_S2048x512_S512x128_S2048x128_1_0_0_1_n_n.rhsIdx j k 0).val = (k ⟨0, by rw [contr_rank]; exact Nat.one_pos⟩).val :=
  DotDims.rhsIdx_val_of_single dot_S2048x512_S512x128_S2048x128_1_0_0_1_n_n rfl j k
/-- its column the output's column. -/
theorem rhs_axis1 (j : S2048x128.Idx) (k : dot_S2048x512_S512x128_S2048x128_1_0_0_1_n_n.contr.Idx) :
    (dot_S2048x512_S512x128_S2048x128_1_0_0_1_n_n.rhsIdx j k 1).val = (j 1).val := rfl

/-- The body's stored value at `(r, l)`: the sum over `k` of `x0[r, k] · x1[k, l]`. -/
theorem product_apply (x0 : FVec Ideal S2048x512 .f32) (x1 : FVec Ideal S512x128 .f32) (r : Fin 2048) (l : Fin 128) :
    k0_pay1 (F := Ideal) x0 x1 (ix2 r l) = ∑ k : Fin 512, x0 (ix2 r k) * x1 (ix2 k l) := by
  unfold k0_pay1
  simp only [shapeCast_self]
  refine (Ideal.matmul_constant_zero_apply dot_S2048x512_S512x128_S2048x128_1_0_0_1_n_n none x0 x1 (ix2 r l)).trans ?_
  rw [← Equiv.sum_comp (contrEquiv1 dot_S2048x512_S512x128_S2048x128_1_0_0_1_n_n 512 contr_rank contr_size).symm]
  refine Finset.sum_congr rfl fun k _ => ?_
  congr 1
  · refine congrArg x0 (funext fun a => Fin.ext ?_)
    match a with
    | ⟨0, _⟩ => exact lhs_axis0 _ _
    | ⟨1, _⟩ => exact (lhs_axis1 _ _).trans (contrEquiv1_symm_val _ 512 contr_rank contr_size k)
  · refine congrArg x1 (funext fun a => Fin.ext ?_)
    match a with
    | ⟨0, _⟩ => exact (rhs_axis0 _ _).trans (contrEquiv1_symm_val _ 512 contr_rank contr_size k)
    | ⟨1, _⟩ => exact rhs_axis1 _ _

end Cert.KernelIdeal.BlockProduct

end
-- ==== Proof.SelectorMatrix.lean ====
/-
  The two arrays the kernel's region finds. The first is the argument with its two leading axes flattened,
  [4, 4096, 4096] read as [16384, 4096] in row-major order (`V_rows`). The second is the 0/1 selector matrix the
  host lines build (`V_selector`): entry `(p, l)` of the [512, 128] matrix is the truth value of `p = 4·l`, the
  comparison of a row counter with four times a column counter, converted to a float. Over the extended reals it is
  `1` where `p = 4l` and `0` elsewhere (`selector_apply`; the comparison of the two 32-bit words decided over all
  512 × 128 pairs).
-/
import proofs.«136969_g15977278341198_cont_week2b_1507_4_alg».proof.Proof.Gen.KernelIdeal.Frame
import Idealize.ShloMosaic.Lib.ValueIdx
import Idealize.ShloMosaic.Lib.StableHlo.Run

noncomputable section

namespace Cert.KernelIdeal.SelectorMatrix

open Cert.KernelIdeal Cert.KernelIdeal.Gen Idealize.ShloMosaic Idealize.ShloMosaic.TcCoe Idealize.ShloMosaic.ValueIdx Idealize.SL.Sem
open Idealize.ShloMosaic.StableHlo

variable {F : FTy → Type} [FloatOps F]

/-- The selector matrix as the host lines compute it: the row counter broadcast along the columns, compared for
    equality with four times the column counter broadcast along the rows, the one-bit result converted to a float. -/
def selector : FVec F S512x128 .f32 :=
  uitofp .f32 (cmpi .eq
    (broadcastInDim S512x128 ![0, 1] bcast_S512x1_S512x128_0_1 (broadcastInDim S512x1 ![0] bcast_S512_S512x1_0 (iotaInDim S512 32 0)))
    (broadcastInDim S512x128 ![0, 1] bcast_S1x128_S512x128_0_1
      (muli (broadcastInDim S1x128 ![] bcast_S_S1x128 (constantI S_ 32 4#32)) (broadcastInDim S1x128 ![1] bcast_S128_S1x128_1 (iotaInDim S128 32 0)))))

variable (m : (ℓ : Loc nD τ sig) → Buf (Elt F) ℓ)

/-- The region finds the selector matrix in its second window's array. -/
theorem V_selector (c : Dev nD) : (V m c main_v10 : S512x128.Idx → F .f32) = selector := by
  show StableHlo.after hostOps0 (fun b => m (c, b)) (Proc.devRef .tc main_v10) = _
  after_results
  rfl

/-- The region finds the argument, flattened to [16384, 4096], in its first window's array. -/
theorem V_rows (c : Dev nD) : (V m c main_v0 : S16384x4096.Idx → F .f32)
    = shapeCast S16384x4096 (m ((c : Thread nD τ).loc main_arg0)) shapeCasts_S4x4096x4096_S16384x4096 := by
  show StableHlo.after hostOps0 (fun b => m (c, b)) (Proc.devRef .tc main_v0) = _
  after_results
  rfl

/-- The word `p` equals the word `4 · l` exactly when `p = 4l`, for `p < 512` and `l < 128` (nothing wraps). -/
theorem eq_words : ∀ (p : Fin 512) (l : Fin 128),
    IntOp.cmpi .eq (BitVec.ofNat 32 p.val) (IntOp.muli 4#32 (BitVec.ofNat 32 l.val)) = if p.val = 4 * l.val then 1#1 else 0#1 := by
  decide +kernel

/-- Over the extended reals the selector's entry `(p, l)` is `1` where `p = 4l` and `0` elsewhere. -/
theorem selector_apply (p : Fin 512) (l : Fin 128) :
    selector (F := Ideal) (ix2 p l) = if p.val = 4 * l.val then 1 else 0 := by
  show (((IntOp.cmpi .eq (BitVec.ofNat 32 p.val) (IntOp.muli 4#32 (BitVec.ofNat 32 l.val))).toNat : ℝ) : EReal) = _
  rw [eq_words]
  split_ifs <;> simp

end Cert.KernelIdeal.SelectorMatrix

end
-- ==== Proof.EveryFourth.lean ====
/-
  Keeping every fourth column. From an array `x` of shape [4, 4096, 4096] the result of shape [4, 4096, 1024] holds
  `x[a, b, 4k]` at `(a, b, k)` (`pick`); on the view with the two leading axes flattened, [16384, 4096] to
  [16384, 1024], it holds `x[r, 4k]` at `(r, k)` (`pickRows`).

  The law that turns a product with a 0/1 selector matrix into that selection: a sum over `k` of `f k · [k = j]` is
  `f j`. It holds on the extended reals for EVERY `f`: `0` annihilates and `1` is neutral for every extended
  real, the infinite ones included, and adding `0` changes nothing, so no entry has to be finite.
-/
import Idealize.ShloMosaic.PureOps.Ideal
import Idealize.ShloMosaic.Lib.ValueIdx

noncomputable section

open scoped BigOperators

namespace Cert.EveryFourth

open Idealize.ShloMosaic Idealize.ShloMosaic.ValueIdx

/-- Column `4k` among the 4096 columns, for `k` among the 1024 kept ones. -/
def quad (k : Fin 1024) : Fin 4096 := ⟨4 * k.val, by omega⟩

theorem quad_val (k : Fin 1024) : (quad k).val = 4 * k.val := rfl

/-- Every fourth column of a [4, 4096, 4096] array: entry `(a, b, k)` is the operand's `(a, b, 4k)`. -/
def pick {α : Type} (x : (⟨3, ![4, 4096, 4096]⟩ : Shape).Idx → α) : (⟨3, ![4, 4096, 1024]⟩ : Shape).Idx → α :=
  fun i => x (ix3 (i 0) (i 1) (quad (i 2)))

theorem pick_apply {α : Type} (x : (⟨3, ![4, 4096, 4096]⟩ : Shape).Idx → α) (a : Fin 4) (b : Fin 4096) (k : Fin 1024) :
    pick x (ix3 a b k) = x (ix3 a b (quad k)) := rfl

/-- The same on the flattened view: entry `(r, k)` of the [16384, 1024] result is the operand's `(r, 4k)`. -/
def pickRows {α : Type} (x : (⟨2, ![16384, 4096]⟩ : Shape).Idx → α) : (⟨2, ![16384, 1024]⟩ : Shape).Idx → α :=
  fun i => x (ix2 (i 0) (quad (i 1)))

theorem pickRows_apply {α : Type} (x : (⟨2, ![16384, 4096]⟩ : Shape).Idx → α) (r : Fin 16384) (k : Fin 1024) :
    pickRows x (ix2 r k) = x (ix2 r (quad k)) := rfl

/-- A sum of products with the indicator of one position `j` is the factor at `j`: the other terms are
    `f k · 0 = 0`, the one left is `f j · 1`. No finiteness of `f` is used. -/
theorem sum_mul_indicator {n : Nat} (f g : Fin n → EReal) (j : Fin n) (hg : ∀ k, g k = if k = j then 1 else 0) :
    ∑ k, f k * g k = f j := by
  rw [Finset.sum_eq_single j]
  · rw [hg, if_pos rfl, mul_one]
  · intro k _ hk
    rw [hg, if_neg hk, mul_zero]
  · intro h
    exact absurd (Finset.mem_univ j) h

end Cert.EveryFourth

end
-- ==== Proof.ColumnSelect.lean ====
/-
  What the kernel's program computes: every fourth column.

  The grid has 8 × 8 points. At point `(i, j)` the body sees rows `2048·i …` and columns `512·j …` of the flattened
  argument (a [2048, 512] block), the whole selector matrix, and writes rows `2048·i …`, columns `128·j …` of the
  [16384, 1024] output. Entry `(r, l)` of the written block is the sum over `k` of `block[r, k] · selector[k, l]`;
  the selector's column `l` is the indicator of `k = 4l`, so the sum is `block[r, 4l]`, which is the flattened
  argument at row `2048·i + r` and column `512·j + 4l = 4·(128·j + l)`: four times the output's column. So every
  point writes back a block of ONE function of the flattened argument, "column `4k` at column `k`" (`pickRows`);
  the 64 blocks tile the output, so the output array ends holding that function. The reshape after the region reads it
  as [4, 4096, 1024]; with the reshape before the region this is column `4k` of the argument's own [4, 4096, 4096]
  layout, since both reshapes only regroup the row index `4096·a + b`.
-/
import proofs.«136969_g15977278341198_cont_week2b_1507_4_alg».proof.Proof.BlockProduct
import proofs.«136969_g15977278341198_cont_week2b_1507_4_alg».proof.Proof.SelectorMatrix
import proofs.«136969_g15977278341198_cont_week2b_1507_4_alg».proof.Proof.EveryFourth
import Idealize.ShloMosaic.Lib.Pipeline.Value
import Idealize.ShloMosaic.Lib.ValueIdx
import Idealize.ShloMosaic.Lib.StableHlo.Run

noncomputable section

open scoped BigOperators

namespace Cert.KernelIdeal.ColumnSelect

open Cert.KernelIdeal Cert.KernelIdeal.Gen Cert.KernelIdeal.BlockProduct Cert.KernelIdeal.SelectorMatrix Cert.EveryFourth
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## The arrays and the blocks, at their literal types -/

/-- The flattened argument, as the region finds it. -/
abbrev rows (c : Dev nD) : FVec Ideal S16384x4096 .f32 := V m c main_v0
/-- The argument's block at a point. -/
abbrev xblk (c : Dev nD) (t : Fin cfg0.N) : FVec Ideal S2048x512 .f32 := iblk m c 0 t
/-- The selector's (only) block at a point. -/
abbrev qblk (c : Dev nD) (t : Fin cfg0.N) : FVec Ideal S512x128 .f32 := iblk m c 1 t

/-- Position `4l` among a block's 512 columns, for `l` among the 128 columns it yields. -/
def quadIn (l : Fin 128) : Fin 512 := ⟨4 * l.val, by omega⟩

theorem hz : (![0, 0] : Fin 2 → Nat) = fun _ => 0 := funext fun a => by fin_cases a <;> rfl

/-! ## The index maps, decided over the 64 points -/

/-- The argument's block index is the output's on both axes; the selector's is `(0, 0)`; the output's stay below 8. -/
theorem idx_facts : ∀ t : Fin cfg0.N,
    win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 output blocks is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-! ## The blocks read off the arrays -/

/-- Entry `(r, k)` of the argument's block at point `t` is the flattened argument at block index × block size plus
    `(r, k)`. -/
theorem xblk_apply (c : Dev nD) (t : Fin cfg0.N) (r : Fin 2048) (k : Fin 512) (i : S16384x4096.Idx)
    (h0 : (i 0).val = win0_0.index t (0 : Fin 2) * 2048 + r.val) (h1 : (i 1).val = win0_0.index t (1 : Fin 2) * 512 + k.val) :
    xblk m c t (ix2 r k) = rows m c i := by
  have e : ((cfg0.win 0).blk t).view.emb (ix2 r k) = i := by
    funext a; apply Fin.ext
    match a with
    | ⟨0, _⟩ => show win0_0.index t (0 : Fin 2) * 2048 + 1 * r.val = (i 0).val; omega
    | ⟨1, _⟩ => show win0_0.index t (1 : Fin 2) * 512 + 1 * k.val = (i 1).val; omega
  show V m c main_v0 (((cfg0.win 0).blk t).view.emb (ix2 r k)) = V m c main_v0 i
  rw [e]

/-- The selector's block is the whole selector: entry `(k, l)` is the indicator of `k = 4l`. -/
theorem qblk_apply (c : Dev nD) (t : Fin cfg0.N) (k : Fin 512) (l : Fin 128) :
    qblk m c t (ix2 k l) = if k = quadIn l then 1 else 0 := by
  obtain ⟨-, -, e2, e3, -, -⟩ := idx_facts t
  have e : ((cfg0.win 1).blk t).view.emb (ix2 k l) = (ix2 k l : S512x128.Idx) := by
    funext a; apply Fin.ext
    match a with
    | ⟨0, _⟩ => show win0_1.index t (0 : Fin 2) * 512 + 1 * k.val = k.val; omega
    | ⟨1, _⟩ => show win0_1.index t (1 : Fin 2) * 128 + 1 * l.val = l.val; omega
  show V m c main_v10 (((cfg0.win 1).blk t).view.emb (ix2 k l)) = _
  rw [e, V_selector, selector_apply]
  exact if_congr ⟨fun h => Fin.ext h, fun h => congrArg Fin.val h⟩ rfl rfl

/-! ## What a point writes back -/

/-- Point `t` writes back block `t` of "column `4k` at column `k`" of the flattened argument. -/
theorem flushed_eq (c : Dev nD) (t : Fin cfg0.N) :
    (dats m 0 c).flushed 2 t = ((cfg0.win 2).blk t).view.read (Elt Ideal) (pickRows (rows m c)) := by
  show (cfg0.win 2).cut (grid0.coords t) ((dats m 0 c).after 2 t) = _
  rw [after0_2]
  unfold out0_2
  rw [View.canon_unit_zero hz]
  simp only [View.ld_unit_zero (S := S2048x512) hz, View.ld_unit_zero (S := S512x128) hz]
  obtain ⟨e0, e1, -, -, -, -⟩ := idx_facts t
  funext j
  obtain ⟨r, l, rfl⟩ : ∃ (r : Fin 2048) (l : Fin 128), j = ix2 r l := ⟨j 0, j 1, eq_ix2 j⟩
  show k0_pay1 (F := Ideal) (xblk m c t) (qblk m c t) (ix2 r l)
    = rows m c (ix2 ((((cfg0.win 2).blk t).view.emb (ix2 r l) : S16384x1024.Idx) 0) (quad ((((cfg0.win 2).blk t).view.emb (ix2 r l) : S16384x1024.Idx) 1)))
  refine (product_apply _ _ r l).trans ?_
  refine (sum_mul_indicator _ _ (quadIn l) (fun k => qblk_apply m c t k l)).trans ?_
  have hi0 : ((((cfg0.win 2).blk t).view.emb (ix2 r l) : S16384x1024.Idx) 0).val = win0_2.index t (0 : Fin 2) * 2048 + 1 * r.val := rfl
  have hi1 : ((((cfg0.win 2).blk t).view.emb (ix2 r l) : S16384x1024.Idx) 1).val = win0_2.index t (1 : Fin 2) * 128 + 1 * l.val := rfl
  refine xblk_apply m c t r (quadIn l) _ (hi0.trans (by omega)) ?_
  refine (congrArg (fun n => 4 * n) hi1).trans ?_
  show 4 * (win0_2.index t (1 : Fin 2) * 128 + 1 * l.val) = win0_0.index t (1 : Fin 2) * 512 + 4 * l.val
  omega

/-! ## The array after the run -/

/-- An index of the output array is in point `t`'s block iff each coordinate is in the block's range on its axis. -/
theorem mem_blk (t : Fin cfg0.N) (i : S16384x1024.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v11).slice (win0_2.rect t)).set ↔ _
  rw [View.set_slice_whole, Rect.mem_set_unit]
  exact Iff.rfl

/-- Every index of the output array is in some point's block: the point whose block indices are the row over 2048 and
    the column over 128. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := idx_onto ⟨(i 0).val / 2048, by omega⟩ ⟨(i 1).val / 128, by omega⟩
  have q0 : win0_2.index t (0 : Fin 2) = (i 0).val / 2048 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- The output array after the run is "column `4k` at column `k`" of the flattened argument. -/
theorem final (c : Dev nD) : (dats m 0 c).arrAt 2 cfg0.N = pickRows (rows m c) :=
  (dats m 0 c).arrAt_eq_of_cover 2 (pickRows (rows m c)) (fun t _ => flushed_eq m c t) cover

/-! ## The reshapes around the region -/

/-- Flatten the two leading axes, keep column `4k` at column `k`, restore the axes: every fourth column of the
    [4, 4096, 4096] array. Both reshapes keep the row-major position, and `(a, b)` is row `4096·a + b`. -/
theorem unflatten_pickRows (x : FVec Ideal S4x4096x4096 .f32) :
    shapeCast S4x4096x1024 (pickRows (shapeCast S16384x4096 x shapeCasts_S4x4096x4096_S16384x4096)) shapeCasts_S16384x1024_S4x4096x1024
      = pick x := by
  funext i
  obtain ⟨a, b, k, rfl⟩ : ∃ (a : Fin 4) (b : Fin 4096) (k : Fin 1024), i = ix3 a b k := ⟨i 0, i 1, i 2, eq_ix3 i⟩
  have hr : a.val * 4096 + b.val < 16384 := by omega
  rw [pick_apply]
  refine (shapeCast_apply _ _ (ix3 a b k) (ix2 (⟨a.val * 4096 + b.val, hr⟩ : Fin 16384) k) ?_).trans ?_
  · rw [Shape.rowMajor_val_two, Shape.rowMajor_val_three]; rfl
  rw [pickRows_apply]
  refine shapeCast_apply _ _ _ (ix3 a b (quad k)) ?_
  rw [Shape.rowMajor_val_two, Shape.rowMajor_val_three]; rfl

/-- The result buffer after the lines that follow the region: the reshape of the output array. -/
theorem tail_eq (c : Dev nD) :
    Pipeline.afterTail₀ cfgs (dats m) 0 (V0 m) [hostOps1] c main_v12
      = shapeCast S4x4096x1024 (pickRows (rows m c)) shapeCasts_S16384x1024_S4x4096x1024 := by
  unfold Pipeline.afterTail₀
  show StableHlo.after hostOps1 _ (Proc.devRef .tc main_v12) = _
  after_results
  rw [← final m c, ← Pipeline.withArrays_arr spec0 launch0.win.arr_inj c (V0 m c) (fun w => (dats m 0 c).arrAt w cfg0.N) 2]
  rfl

/-- The result buffer ends at every fourth column of the argument. -/
theorem result_eq (c : Dev nD) :
    Pipeline.afterTail₀ cfgs (dats m) 0 (V0 m) [hostOps1] c main_v12 = pick (m ((c : Thread nD τ).loc main_arg0)) := by
  rw [tail_eq]
  unfold rows
  rw [V_rows]
  exact unflatten_pickRows _

/-! ## The run -/

/-- Every weakly fair execution of the kernel's program terminates with the result at every fourth column of the
    argument and the argument unchanged. -/
theorem run : θ_run defs (onTc (τ := τ) (main (F := Ideal))) ⟨m, fun _ => 0, ρ⟩ fun r => ∀ c : Dev nD,
      r.2.mem ((c.tc : Thread nD τ).loc main_v12) = pick (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v12 (Pipeline.mem_restRefs_of main_v12 (by decide) (by decide))).trans (result_eq m c),
        ((h c).2 main_arg0 (Pipeline.mem_restRefs_of main_arg0 (by decide) (by decide))).trans (W_main_arg0 m (dats m) c)⟩)
    (run_main m ρ)

end Cert.KernelIdeal.ColumnSelect

end
-- ==== Proof.RefRun.lean ====
/-
  The reference's run, read back. Its @main is a straight line once the two outlined functions are unfolded at their
  calls: the table of 1024 column positions, then the indexing function's lines — a negative position is wrapped by
  adding the axis length 4096 (`wrapped`), the positions are laid as a column (`column`), each is tested for
  `0 ≤ p ≤ 4095` (`inRange`, and `allInRange` after the and-reduction over the column's unit axis), the operand is
  gathered along its last axis at the positions, and where a position failed the test the gathered entry is replaced
  by a not-a-number filler (`taken`). Every weakly fair execution ends with the result buffer at `taken` of the
  argument and the argument unchanged.
-/
import proofs.«136969_g15977278341198_cont_week2b_1507_4_alg».proof.Proof.Gen.ReferenceIdeal
import Idealize.ShloMosaic.Lib.StableHlo.Run

noncomputable section

namespace Cert.ReferenceIdeal.TakeRun

open Cert.ReferenceIdeal Cert.ReferenceIdeal.Gen Idealize.ShloMosaic Idealize.ShloMosaic.TcCoe Idealize.SL.Sem Idealize.ShloMosaic.StableHlo

variable {F : FTy → Type} [FloatOps F]

/-! ## The values the lines compute -/

/-- The 1024 column positions, as the constant table lists them. -/
def positions : IVec S1024 32 := fun i => lit0 (S1024.rowMajor i)

/-- A negative position counted from the end: `p + 4096` where `p < 0`, else `p`. -/
def wrapped : IVec S1024 32 :=
  select (cmpi .slt positions (broadcastInDim S1024 ![] bcast_S_S1024 (constantI S_ 32 0#32)))
    (addi positions (broadcastInDim S1024 ![] bcast_S_S1024 (constantI S_ 32 4096#32))) positions

/-- The positions as a [1024, 1] column of start indices. -/
def column : IVec S1024x1 32 := broadcastInDim S1024x1 ![0] bcast_S1024_S1024x1_0 wrapped

/-- Per position, `0 ≤ p` and `p ≤ 4095`. -/
def inRange : IVec S1024x1 1 :=
  andi (cmpi .sge column (broadcastInDim S1024x1 ![] bcast_S_S1024x1 (constantI S_ 32 0#32)))
    (cmpi .sle column (broadcastInDim S1024x1 ![0, 1] bcast_S1x1_S1024x1_0_1
      (broadcastInDim S1x1 ![1] bcast_S1_S1x1_1 (constantI S1 32 4095#32))))

/-- The same with the column's unit axis reduced away by `and`. -/
def allInRange : IVec S1024 1 :=
  Host.reduce IntOp.andi inRange (constantI S_ 1 1#1) reducesTo_S1024x1_S1024_d1 h_S_

/-- The result: the operand gathered along its last axis at the positions, a not-a-number filler where a position is
    out of range. -/
def taken (x : FVec F S4x4096x4096 .f32) : FVec F S4x4096x1024 .f32 :=
  select (broadcastInDim S4x4096x1024 ![2] bcast_S1024_S4x4096x1024_2 allInRange)
    (Host.gather gather_S4x4096x4096_S1024x1_S4x4096x1024_01_2_n_n_2_1_440961 x column)
    (broadcastInDim S4x4096x1024 ![] bcast_S_S4x4096x1024 (constant S_ .f32 0x7FC00000#32))

/-! ## @main as a list of operations -/

/-- @main's 24 operations in order: the table, then the indexing function's lines with the wrapping select of the
    function it calls in its place. -/
abbrev ops : List (HloOp τ sig (Elt F)) :=
  [ nullary main_c (fun i => lit0 (S1024.rowMajor i)),
    TRef.nullary main_call0.c (constantI S_ 32 0#32),
    TRef.unary main_call0.c main_call0.v0 (broadcastInDim S1024 ![] bcast_S_S1024),
    TRef.binary (.of main_c) main_call0.v0 main_call0.v1 (cmpi .slt),
    TRef.nullary main_call0.c_0 (constantI S_ 32 4096#32),
    TRef.unary main_call0.c_0 main_call0.v2 (broadcastInDim S1024 ![] bcast_S_S1024),
    TRef.binary (.of main_c) main_call0.v2 main_call0.v3 addi,
    TRef.ternary main_call0.v1 main_call0.v3 (.of main_c) main_call0.call0.v0 select,
    TRef.unary main_call0.call0.v0 main_call0.v5 (broadcastInDim S1024x1 ![0] bcast_S1024_S1024x1_0),
    TRef.nullary main_call0.c_1 (constantI S1 32 4095#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg0) main_call0.v5 main_call0.v13 (fun x i => Host.gather gather_S4x4096x4096_S1024x1_S4x4096x1024_01_2_n_n_2_1_440961 x i),
    TRef.unary main_call0.v12 main_call0.v14 (broadcastInDim S4x4096x1024 ![2] bcast_S1024_S4x4096x1024_2),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select ]

set_option maxRecDepth 1024 in
/-- @main is that straight line: the two functions unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- The fold of the 24 operations at the result buffer is `taken` of what the argument buffer held. -/
theorem result_eq (V : Valuation τ sig (Elt F)) :
    after ops V (Proc.devRef .tc main_v0) = taken (V (Proc.devRef .tc main_arg0)) := by
  after_results
  simp only [cast_eq]
  rfl

/-- No operation writes the argument buffer. -/
theorem arg_eq (V : Valuation τ sig (Elt F)) :
    after ops V (Proc.devRef .tc main_arg0) = V (Proc.devRef .tc main_arg0) := by
  after_results

/-- On every device, from any memory with zero counters: every weakly fair execution of @main terminates with the
    result at `taken` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = taken (m ((c.tc : Thread nD τ).loc main_arg0))
      ∧ r.2.mem ((c.tc : Thread nD τ).loc main_arg0) = m ((c.tc : Thread nD τ).loc main_arg0) :=
  (θ_run defs _ _).mono (fun _ h c => ⟨(h c main_v0).trans (result_eq _), (h c main_arg0).trans (arg_eq _)⟩)
    (run_seq scopedRefs_eq scopedSems_eq defs main (fun _ => ops) main_eq (fun _ => ops_sub) m ρ)

end Cert.ReferenceIdeal.TakeRun

end
-- ==== Proof.RefTake.lean ====
/-
  What the reference computes, index by index: every fourth column.

  The table of positions holds `4k` at `k` (decided over its 1024 entries). None of these is negative, so the
  wrap-around leaves each as it is; each satisfies `0 ≤ 4k ≤ 4095`, so the range test holds at every position and
  its and-reduction over the column's unit axis is `1` everywhere: the filler is never selected. The gather along the
  last axis reads the operand at `(a, b, p)` with `p` the position `4k` read as a signed word and clamped into
  `[0, 4095]`, which is `4k` itself. Hence the result at `(a, b, k)` is the operand's `(a, b, 4k)`.
-/
import proofs.«136969_g15977278341198_cont_week2b_1507_4_alg».proof.Proof.RefRun
import proofs.«136969_g15977278341198_cont_week2b_1507_4_alg».proof.Proof.EveryFourth
import Idealize.ShloMosaic.Lib.ValueIdx
import Idealize.ShloMosaic.PureOps.Reduce

noncomputable section

namespace Cert.ReferenceIdeal.TakeRead

open Cert.ReferenceIdeal Cert.ReferenceIdeal.Gen Cert.ReferenceIdeal.TakeRun Cert.EveryFourth
open Idealize.ShloMosaic Idealize.ShloMosaic.ValueIdx

variable {F : FTy → Type} [FloatOps F]

/-! ## The words -/

/-- Entry `j` of the table is the word `4j`. -/
theorem table_eq : ∀ j : Fin 1024, lit0 j = BitVec.ofNat 32 (4 * j.val) := by decide +kernel

/-- For the word `p = 4k`, `k < 1024`: it is not negative, so the wrap-around keeps it; it passes `0 ≤ p ≤ 4095`;
    and read signed and clamped into `[0, 4095]` it is `4k`. -/
theorem word_facts : ∀ k : Fin 1024,
    Scalar.select (IntOp.cmpi .slt (BitVec.ofNat 32 (4 * k.val)) 0#32) (IntOp.addi (BitVec.ofNat 32 (4 * k.val)) 4096#32)
        (BitVec.ofNat 32 (4 * k.val)) = BitVec.ofNat 32 (4 * k.val)
    ∧ IntOp.andi (IntOp.cmpi .sge (BitVec.ofNat 32 (4 * k.val)) 0#32) (IntOp.cmpi .sle (BitVec.ofNat 32 (4 * k.val)) 4095#32) = 1#1
    ∧ min (BitVec.ofNat 32 (4 * k.val)).toInt.toNat (4096 - 1) = 4 * k.val := by decide +kernel

/-! ## The stages at an index -/

theorem positions_apply (i : S1024.Idx) : positions i = BitVec.ofNat 32 (4 * (i 0).val) := by
  unfold positions
  exact (table_eq _).trans (congrArg (fun n => BitVec.ofNat 32 (4 * n)) (Shape.rowMajor_val_one i))

theorem wrapped_apply (i : S1024.Idx) : wrapped i = BitVec.ofNat 32 (4 * (i 0).val) := by
  have hk : (i 0).val < 1024 := (i 0).isLt
  show Scalar.select (IntOp.cmpi .slt (positions i) 0#32) (IntOp.addi (positions i) 4096#32) (positions i) = _
  rw [positions_apply]
  exact (word_facts ⟨(i 0).val, hk⟩).1

theorem column_apply (j : S1024x1.Idx) : column j = BitVec.ofNat 32 (4 * (j 0).val) := by
  unfold column broadcastInDim
  rw [wrapped_apply]
  rfl

theorem inRange_apply (j : S1024x1.Idx) : inRange j = 1#1 := by
  have hk : (j 0).val < 1024 := (j 0).isLt
  show IntOp.andi (IntOp.cmpi .sge (column j) 0#32) (IntOp.cmpi .sle (column j) 4095#32) = 1#1
  rw [column_apply]
  exact (word_facts ⟨(j 0).val, hk⟩).2.1

/-- A left fold by `and` from `1` over words that are all `1` stays `1`. -/
theorem foldl_andi_ones {ι : Type} (f : ι → BitVec 1) (hf : ∀ n, f n = 1#1) (l : List ι) :
    l.foldl (fun r n => IntOp.andi r (f n)) 1#1 = 1#1 := by
  have e : IntOp.andi (1#1) (1#1) = 1#1 := by decide
  induction l with
  | nil => rfl
  | cons a l ih => rw [List.foldl_cons, hf a, e]; exact ih

theorem allInRange_apply (i : S1024.Idx) : allInRange i = 1#1 := by
  unfold allInRange
  rw [Host.reduce_eq_foldl]
  exact foldl_andi_ones inRange inRange_apply _

/-! ## The gather along the last axis -/

/-- The gather of a [4, 4096, 4096] operand at a [1024, 1] column of start indices for its last axis, read at
    `(a, b, k)`: the two leading coordinates pass through (they are the slice's offsets), the last is start index `k`
    read signed and clamped into `[0, 4095]`. -/
theorem gather_apply {α : Type} {w : Nat} (x : S4x4096x4096.Idx → α) (idx : IVec S1024x1 w) (a : Fin 4) (b : Fin 4096)
    (k : Fin 1024) (c : Fin 4096) (hc : min (idx (ix2 k (0 : Fin 1))).toInt.toNat (4096 - 1) = c.val) :
    Host.gather gather_S4x4096x4096_S1024x1_S4x4096x1024_01_2_n_n_2_1_440961 x idx (ix3 a b k) = x (ix3 a b c) := by
  unfold Host.gather
  have h0 : (gather_S4x4096x4096_S1024x1_S4x4096x1024_01_2_n_n_2_1_440961.operandIdx (ix3 a b k) idx 0).val = a.val := by
    show 0 + 0 + a.val = a.val
    omega
  have h1 : (gather_S4x4096x4096_S1024x1_S4x4096x1024_01_2_n_n_2_1_440961.operandIdx (ix3 a b k) idx 1).val = b.val := by
    show 0 + 0 + b.val = b.val
    omega
  have hsi : gather_S4x4096x4096_S1024x1_S4x4096x1024_01_2_n_n_2_1_440961.siIdx (ix3 a b k) ⟨0, by decide⟩ = ix2 k (0 : Fin 1) := by
    funext d; apply Fin.ext
    match d with
    | ⟨0, _⟩ => rfl
    | ⟨1, _⟩ => rfl
  have h2 : (gather_S4x4096x4096_S1024x1_S4x4096x1024_01_2_n_n_2_1_440961.operandIdx (ix3 a b k) idx 2).val = c.val := by
    rw [← hc, ← hsi]
    rfl
  refine congrArg x (funext fun ax => Fin.ext ?_)
  match ax with
  | ⟨0, _⟩ => exact h0
  | ⟨1, _⟩ => exact h1
  | ⟨2, _⟩ => exact h2

/-! ## The result -/

/-- The reference's result is every fourth column of its argument. -/
theorem taken_eq_pick (x : FVec F S4x4096x4096 .f32) : taken x = pick x := by
  funext i
  obtain ⟨a, b, k, rfl⟩ : ∃ (a : Fin 4) (b : Fin 4096) (k : Fin 1024), i = ix3 a b k := ⟨i 0, i 1, i 2, eq_ix3 i⟩
  rw [pick_apply]
  unfold taken
  rw [select_apply]
  have hm : broadcastInDim S4x4096x1024 ![2] bcast_S1024_S4x4096x1024_2 allInRange (ix3 a b k) = 1#1 := allInRange_apply _
  rw [hm, select_one]
  exact gather_apply x column a b k (quad k) (by rw [column_apply]; exact (word_facts k).2.2)

end Cert.ReferenceIdeal.TakeRead

end
-- ==== Proof.lean ====
/-
  The kernel keeps every fourth column of a [4, 4096, 4096] array by a product with a 0/1 selector matrix; the
  reference indexes the last axis at the positions 0, 4, 8, …, 4092. Over the extended reals both results are the
  array `(a, b, k) ↦ x[a, b, 4k]`.

  Kernel side (Proof/ColumnSelect.lean over Proof/BlockProduct.lean and Proof/SelectorMatrix.lean): each written block
  entry is a sum over 512 positions of an argument entry times a selector entry, the selector's column `l` is the
  indicator of position `4l`, and a sum of products with an indicator is the factor at its position
  (Proof/EveryFourth.lean) — true for every extended real, so the inputs' finiteness is never used. The blocks tile
  the output, and the reshapes before and after the region only regroup the row index.
  Reference side (Proof/RefRun.lean, Proof/RefTake.lean): the positions are in range, so the gather reads exactly
  those columns and the out-of-range filler is never selected.

  The two word-level programs' frames are the generated ones; the reference's is its run with the result dropped.
  The idealization rewrote nothing, so there is nothing to preserve beyond the program's own text.
-/
import proofs.«136969_g15977278341198_cont_week2b_1507_4_alg».proof.Defs
import proofs.«136969_g15977278341198_cont_week2b_1507_4_alg».proof.Proof.Gen.Kernel
import proofs.«136969_g15977278341198_cont_week2b_1507_4_alg».proof.Proof.Gen.Kernel.Frame
import proofs.«136969_g15977278341198_cont_week2b_1507_4_alg».proof.Proof.Gen.KernelIdeal
import proofs.«136969_g15977278341198_cont_week2b_1507_4_alg».proof.Proof.Gen.KernelIdeal.Frame
import proofs.«136969_g15977278341198_cont_week2b_1507_4_alg».proof.Proof.Gen.ReferenceIdeal
import proofs.«136969_g15977278341198_cont_week2b_1507_4_alg».proof.Proof.Gen.Pre_finite_inputs
import proofs.«136969_g15977278341198_cont_week2b_1507_4_alg».proof.Proof.ColumnSelect
import proofs.«136969_g15977278341198_cont_week2b_1507_4_alg».proof.Proof.RefTake
import Idealize.ShloMosaic.Adequacy
import Idealize.ShloMosaic.Init

noncomputable section

namespace Cert.Proof

open Idealize.ShloMosaic Idealize.ShloMosaic.TcCoe Idealize.SL.Sem

/-- The kernel's program runs and leaves its argument as it was. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.TakeRun.run (F := Ideal) m ρ)

/-- Nothing was rewritten in the idealization. -/
theorem preserves : Cert.preserves_Kernel_KernelIdeal := trivial

/-- From memories that agree on the argument, the kernel's program and the reference both end with every fourth
    column of that argument in their result. -/
theorem algebraic : Cert.algebraic_KernelIdeal_ReferenceIdeal := by
  intro m ρ m' ρ' _ hagree
  refine ⟨fun c => Cert.EveryFourth.pick (m ((c.tc : Thread Cert.KernelIdeal.nD Cert.KernelIdeal.τ).loc Cert.KernelIdeal.main_arg0)),
    Cert.KernelIdeal.ColumnSelect.run m ρ, ?_⟩
  refine (θ_run Cert.ReferenceIdeal.defs _ _).mono (fun _ h c => ⟨(h c).1.trans ?_, (h c).2⟩)
    (Cert.ReferenceIdeal.TakeRun.run (F := Ideal) m' ρ')
  rw [Cert.ReferenceIdeal.TakeRead.taken_eq_pick, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
